-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x8 : Shape := ⟨3, ![8, 4096, 8]⟩
abbrev S8 : Shape := ⟨1, ![8]⟩
abbrev S8x2048 : Shape := ⟨2, ![8, 2048]⟩
abbrev S2048 : Shape := ⟨1, ![2048]⟩
abbrev S2048x512 : Shape := ⟨2, ![2048, 512]⟩
abbrev S512 : Shape := ⟨1, ![512]⟩
abbrev S_ : Shape := ⟨0, ![]⟩

class Facts : Prop where
  bcast_S_S8x4096x8 : S_.BroadcastsInDim S8x4096x8 (![] : Fin 0 → Fin S8x4096x8.rank)
  reducesTo_S8x4096x8_S_d0_1_2 : S8x4096x8.ReducesTo [0, 1, 2] S_
  h_S_ : 0 < S_.numel
  bcast_S_S8 : S_.BroadcastsInDim S8 (![] : Fin 0 → Fin S8.rank)
  reducesTo_S8_S_d0 : S8.ReducesTo [0] S_
  bcast_S_S8x2048 : S_.BroadcastsInDim S8x2048 (![] : Fin 0 → Fin S8x2048.rank)
  reducesTo_S8x2048_S_d0_1 : S8x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S2048x512 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x4096x8 .f32) (main_arg1 : FVec F S8 .f32) (main_arg2 : FVec F S8x2048 .f32) (main_arg3 : FVec F S2048 .f32) (main_arg4 : FVec F S2048x512 .f32) (main_arg5 : FVec F S512 .f32) : IVec S_ 1 :=
  let main_v0 : FVec F S8x4096x8 .f32 := Host.absf main_arg0
  let main_cst : FVec F S_ .f32 := constant S_ .f32 0x7F800000#32
  let main_v1 : FVec F S8x4096x8 .f32 := broadcastInDim S8x4096x8 ![] bcast_S_S8x4096x8 main_cst
  let main_v2 : IVec S8x4096x8 1 := cmpf .olt main_v0 main_v1
  let main_c : IVec S_ 1 := constantI S_ 1 1#1
  let main_v3 : IVec S_ 1 := (fun x v => Host.reduce IntOp.andi x v reducesTo_S8x4096x8_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x4096x8 : Shape := ⟨3, ![8, 4096, 8]⟩
abbrev S8 : Shape := ⟨1, ![8]⟩
abbrev S8x2048 : Shape := ⟨2, ![8, 2048]⟩
abbrev S2048 : Shape := ⟨1, ![2048]⟩
abbrev S2048x512 : Shape := ⟨2, ![2048, 512]⟩
abbrev S512 : Shape := ⟨1, ![512]⟩
abbrev S32768x8 : Shape := ⟨2, ![32768, 8]⟩
abbrev S1x8 : Shape := ⟨2, ![1, 8]⟩
abbrev S1x2048 : Shape := ⟨2, ![1, 2048]⟩
abbrev S1x512 : Shape := ⟨2, ![1, 512]⟩
abbrev S32768x512 : Shape := ⟨2, ![32768, 512]⟩
abbrev S512x8 : Shape := ⟨2, ![512, 8]⟩
abbrev S512x512 : Shape := ⟨2, ![512, 512]⟩
abbrev S512x2048 : Shape := ⟨2, ![512, 2048]⟩
abbrev S8x4096x512 : Shape := ⟨3, ![8, 4096, 512]⟩

abbrev nBuf : Space → Nat
  | .hbm => 12
  | .vmem => 9
  | .smem => 0
  | _ => 0

abbrev bufTy : (tb : Table) → Fin (tcTables nBuf tb) → BufTy
  | .hbm, ⟨0, _⟩ => ⟨S8x4096x8, .f32⟩
  | .hbm, ⟨1, _⟩ => ⟨S8, .f32⟩
  | .hbm, ⟨2, _⟩ => ⟨S8x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S32768x8, .f32⟩
  | .hbm, ⟨7, _⟩ => ⟨S1x8, .f32⟩
  | .hbm, ⟨8, _⟩ => ⟨S1x2048, .f32⟩
  | .hbm, ⟨9, _⟩ => ⟨S1x512, .f32⟩
  | .hbm, ⟨10, _⟩ => ⟨S32768x512, .f32⟩
  | .hbm, ⟨11, _⟩ => ⟨S8x4096x512, .f32⟩
  | .local _ .vmem, ⟨0, _⟩ => ⟨S512x8, .f32⟩
  | .local _ .vmem, ⟨1, _⟩ => ⟨S512x8, .f32⟩
  | .local _ .vmem, ⟨2, _⟩ => ⟨S1x8, .f32⟩
  | .local _ .vmem, ⟨3, _⟩ => ⟨S8x2048, .f32⟩
  | .local _ .vmem, ⟨4, _⟩ => ⟨S1x2048, .f32⟩
  | .local _ .vmem, ⟨5, _⟩ => ⟨S2048x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | _, _ => ⟨S8x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x8_S32768x8 : S8x4096x8.ShapeCasts S32768x8
  shapeCasts_S8_S1x8 : S8.ShapeCasts S1x8
  shapeCasts_S2048_S1x2048 : S2048.ShapeCasts S1x2048
  shapeCasts_S512_S1x512 : S512.ShapeCasts S1x512
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S32768x512_S8x4096x512 : S32768x512.ShapeCasts S8x4096x512
  dot_S512x8_S8x2048_S512x2048_1_0_0_1_n_n_wf : DotDims.WF S512x8 S8x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S32768x8.size a
  hwx0_0 : ∀ i : grid0.Coords, EltTy.bits .f32 = 32 ∨ (Rect.block (s := S32768x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .f32 = 32 ∨ (Rect.block (s := S8x2048) S8x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .f32 = 32 ∨ (Rect.block (s := S2048x512) S2048x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S32768x512.size a
  hwx0_6 : ∀ i : grid0.Coords, EltTy.bits .f32 = 32 ∨ (Rect.block (s := S32768x512) S512x512.size (cc0_transform_6 i) (hinb0_6 i)).WholeWords (EltTy.packing .f32)

variable [Facts₀]

def dot_S512x8_S8x2048_S512x2048_1_0_0_1_n_n : DotDims S512x8 S8x2048 S512x2048 where
  lhsContracting := [1]
  rhsContracting := [0]
  lhsNonContracting := [0]
  rhsNonContracting := [1]
  lhsBatch := []
  rhsBatch := []
  wf := dot_S512x8_S8x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x8 : Shape := ⟨3, ![8, 4096, 8]⟩
abbrev S8 : Shape := ⟨1, ![8]⟩
abbrev S8x2048 : Shape := ⟨2, ![8, 2048]⟩
abbrev S2048 : Shape := ⟨1, ![2048]⟩
abbrev S2048x512 : Shape := ⟨2, ![2048, 512]⟩
abbrev S512 : Shape := ⟨1, ![512]⟩
abbrev S1x1x8 : Shape := ⟨3, ![1, 1, 8]⟩
abbrev S8x4096x2048 : Shape := ⟨3, ![8, 4096, 2048]⟩
abbrev S1x1x2048 : Shape := ⟨3, ![1, 1, 2048]⟩
abbrev S_ : Shape := ⟨0, ![]⟩
abbrev S8x4096x512 : Shape := ⟨3, ![8, 4096, 512]⟩
abbrev S1x1x512 : Shape := ⟨3, ![1, 1, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x8, .f32⟩
  | .hbm, ⟨1, _⟩ => ⟨S8, .f32⟩
  | .hbm, ⟨2, _⟩ => ⟨S8x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S8x4096x8, .f32⟩
  | .hbm, ⟨7, _⟩ => ⟨S8, .f32⟩
  | .hbm, ⟨8, _⟩ => ⟨S1x1x8, .f32⟩
  | .hbm, ⟨9, _⟩ => ⟨S8x4096x8, .f32⟩
  | .hbm, ⟨10, _⟩ => ⟨S8x4096x8, .f32⟩
  | .hbm, ⟨11, _⟩ => ⟨S8x4096x2048, .f32⟩
  | .hbm, ⟨12, _⟩ => ⟨S1x1x2048, .f32⟩
  | .hbm, ⟨13, _⟩ => ⟨S8x4096x2048, .f32⟩
  | .hbm, ⟨14, _⟩ => ⟨S8x4096x2048, .f32⟩
  | .hbm, ⟨15, _⟩ => ⟨S_, .f32⟩
  | .hbm, ⟨16, _⟩ => ⟨S8x4096x2048, .f32⟩
  | .hbm, ⟨17, _⟩ => ⟨S8x4096x2048, .f32⟩
  | .hbm, ⟨18, _⟩ => ⟨S8x4096x512, .f32⟩
  | .hbm, ⟨19, _⟩ => ⟨S1x1x512, .f32⟩
  | .hbm, ⟨20, _⟩ => ⟨S8x4096x512, .f32⟩
  | .hbm, ⟨21, _⟩ => ⟨S8x4096x512, .f32⟩
  | _, _ => ⟨S8x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x8_S8x2048_S8x4096x2048_2_0_01_1_n_n_wf : DotDims.WF S8x4096x8 S8x2048 S8x4096x2048 [2] [0] [0, 1] [1] [] []
  dot_S8x4096x2048_S2048x512_S8x4096x512_2_0_01_1_n_n_wf : DotDims.WF S8x4096x2048 S2048x512 S8x4096x512 [2] [0] [0, 1] [1] [] []

variable [Facts₀]

def dot_S8x4096x8_S8x2048_S8x4096x2048_2_0_01_1_n_n : DotDims S8x4096x8 S8x2048 S8x4096x2048 where
  lhsContracting := [2]
  rhsContracting := [0]
  lhsNonContracting := [0, 1]
  rhsNonContracting := [1]
  lhsBatch := []
  rhsBatch := []
  wf := dot_S8x4096x8_S8x2048_S8x4096x2048_2_0_01_1_n_n_wf
def dot_S8x4096x2048_S2048x512_S8x4096x512_2_0_01_1_n_n : DotDims S8x4096x2048 S2048x512 S8x4096x512 where
  lhsContracting := [2]
  rhsContracting := [0]
  lhsNonContracting := [0, 1]
  rhsNonContracting := [1]
  lhsBatch := []
  rhsBatch := []
  wf := dot_S8x4096x2048_S2048x512_S8x4096x512_2_0_01_1_n_n_wf

class Facts : Prop extends Facts₀ where

variable [Facts]
-- ==== Proof.Spec.lean ====
/-
  The feed-forward head over cosine features, as one function of the argument arrays.

  A token carries eight inputs `x₀ … x₇`; with the eight angles `θ₀ … θ₇` its feature on wire `q` is
  `cos x_q · cos θ_q`. Hidden unit `f` of the token is `max (∑_q feature_q · W1[q, f] + b1[f]) 0`, and output `e` is
  `∑_f hidden_f · W2[f, e] + b2[e]`. Both programs compute exactly this expression, term by term and in the same
  order of factors; they differ only in how the token axis is laid out: as (batch, position), or flattened to the one
  row index `batch · 4096 + position`. So no algebraic law joins the two sides, only a change of index, and nothing
  here asks the inputs to be finite.
-/
import Idealize.ShloMosaic.PureOps.Ideal
import Idealize.ShloMosaic.Lib.ValueIdx

noncomputable section

namespace Cert.CosHead

open Idealize.ShloMosaic Idealize.ShloMosaic.ValueIdx

/-- The head with the tokens as 32768 rows, the angles and the two biases as one-row matrices: entry `(r, e)`. -/
def headRows (x : FVec Ideal ⟨2, ![32768, 8]⟩ .f32) (θ : FVec Ideal ⟨2, ![1, 8]⟩ .f32)
    (W1 : FVec Ideal ⟨2, ![8, 2048]⟩ .f32) (b1 : FVec Ideal ⟨2, ![1, 2048]⟩ .f32)
    (W2 : FVec Ideal ⟨2, ![2048, 512]⟩ .f32) (b2 : FVec Ideal ⟨2, ![1, 512]⟩ .f32) :
    FVec Ideal ⟨2, ![32768, 512]⟩ .f32 := fun i =>
  (∑ f : Fin 2048,
      max ((∑ q : Fin 8, (Ideal.cos (x (ix2 (i 0) q)) * Ideal.cos (θ (ix2 (0 : Fin 1) q))) * W1 (ix2 q f))
            + b1 (ix2 (0 : Fin 1) f)) (Ideal.ofBits .f32 0x00000000#32)
        * W2 (ix2 f (i 1)))
    + b2 (ix2 (0 : Fin 1) (i 1))

/-- The head over the arrays as the programs receive them: entry `(b, s, e)`. -/
def head (x : FVec Ideal ⟨3, ![8, 4096, 8]⟩ .f32) (θ : FVec Ideal ⟨1, ![8]⟩ .f32)
    (W1 : FVec Ideal ⟨2, ![8, 2048]⟩ .f32) (b1 : FVec Ideal ⟨1, ![2048]⟩ .f32)
    (W2 : FVec Ideal ⟨2, ![2048, 512]⟩ .f32) (b2 : FVec Ideal ⟨1, ![512]⟩ .f32) :
    FVec Ideal ⟨3, ![8, 4096, 512]⟩ .f32 := fun i =>
  (∑ f : Fin 2048,
      max ((∑ q : Fin 8, (Ideal.cos (x (ix3 (i 0) (i 1) q)) * Ideal.cos (θ (ix1 q))) * W1 (ix2 q f))
            + b1 (ix1 f)) (Ideal.ofBits .f32 0x00000000#32)
        * W2 (ix2 f (i 2)))
    + b2 (ix1 (i 2))

/-- Row `b · 4096 + s` of the flattened token axis. -/
abbrev row (b : Fin 8) (s : Fin 4096) : Fin 32768 := ⟨b.val * 4096 + s.val, by have := b.isLt; have := s.isLt; omega⟩

/-- The two forms agree once the rows form is fed the flattened inputs and the one-row angles and biases: entry
    `(b, s, e)` of the one is entry `(b · 4096 + s, e)` of the other. -/
theorem head_eq_rows (x : FVec Ideal ⟨3, ![8, 4096, 8]⟩ .f32) (θ : FVec Ideal ⟨1, ![8]⟩ .f32)
    (W1 : FVec Ideal ⟨2, ![8, 2048]⟩ .f32) (b1 : FVec Ideal ⟨1, ![2048]⟩ .f32)
    (W2 : FVec Ideal ⟨2, ![2048, 512]⟩ .f32) (b2 : FVec Ideal ⟨1, ![512]⟩ .f32)
    (x' : FVec Ideal ⟨2, ![32768, 8]⟩ .f32) (θ' : FVec Ideal ⟨2, ![1, 8]⟩ .f32)
    (b1' : FVec Ideal ⟨2, ![1, 2048]⟩ .f32) (b2' : FVec Ideal ⟨2, ![1, 512]⟩ .f32)
    (hx : ∀ b s q, x' (ix2 (row b s) q) = x (ix3 b s q)) (hθ : ∀ q, θ' (ix2 (0 : Fin 1) q) = θ (ix1 q))
    (hb1 : ∀ f, b1' (ix2 (0 : Fin 1) f) = b1 (ix1 f)) (hb2 : ∀ e, b2' (ix2 (0 : Fin 1) e) = b2 (ix1 e))
    (b : Fin 8) (s : Fin 4096) (e : Fin 512) :
    headRows x' θ' W1 b1' W2 b2' (ix2 (row b s) e) = head x θ W1 b1 W2 b2 (ix3 b s e) := by
  show (∑ f : Fin 2048,
      max ((∑ q : Fin 8, (Ideal.cos (x' (ix2 (row b s) q)) * Ideal.cos (θ' (ix2 (0 : Fin 1) q))) * W1 (ix2 q f))
            + b1' (ix2 (0 : Fin 1) f)) (Ideal.ofBits .f32 0x00000000#32)
        * W2 (ix2 f e)) + b2' (ix2 (0 : Fin 1) e)
    = (∑ f : Fin 2048,
      max ((∑ q : Fin 8, (Ideal.cos (x (ix3 b s q)) * Ideal.cos (θ (ix1 q))) * W1 (ix2 q f))
            + b1 (ix1 f)) (Ideal.ofBits .f32 0x00000000#32)
        * W2 (ix2 f e)) + b2 (ix1 e)
  simp only [hx, hθ, hb1, hb2]

end Cert.CosHead

end
-- ==== Proof.RefValue.lean ====
/-
  What the reference computes is the head, entry by entry.

  The reference forms `cos x · cos θ` over the whole `[8, 4096, 8]` array (the angles broadcast over batch and
  position), contracts the wire axis against `W1`, adds `b1` broadcast over the tokens, takes the maximum with zero,
  contracts the hidden axis against `W2` and adds `b2`. Read at entry `(b, s, e)` one operation at a time, every
  broadcast picks the coordinate it keeps and each contraction is a plain sum, so the result is the head's formula.
-/
import proofs.«105000_j65481071397339_1_alg».proof.Proof.Gen.ReferenceIdeal.Read
import proofs.«105000_j65481071397339_1_alg».proof.Proof.Spec

noncomputable section

namespace Cert.CosHead.Ref

open Idealize.ShloMosaic Idealize.ShloMosaic.ValueIdx Cert.ReferenceIdeal Cert.ReferenceIdeal.Read

/-! The coordinates each operation reads, at the entries the head is written over. -/

theorem out_lhs (b : Fin 8) (s : Fin 4096) (e : Fin 512) (k : Fin 2048) : lidx_main_v10 (ix3 b s e) k = ix3 b s k :=
  funext fun a => Fin.ext (by match a with | ⟨0, _⟩ => rfl | ⟨1, _⟩ => rfl | ⟨2, _⟩ => rfl)
theorem out_rhs (b : Fin 8) (s : Fin 4096) (e : Fin 512) (k : Fin 2048) : ridx_main_v10 (ix3 b s e) k = ix2 k e :=
  funext fun a => Fin.ext (by match a with | ⟨0, _⟩ => rfl | ⟨1, _⟩ => rfl)
theorem out_bias (b : Fin 8) (s : Fin 4096) (e : Fin 512) : idx_main_v11 (idx_main_v12 (ix3 b s e)) = ix1 e :=
  funext fun a => Fin.ext (by match a with | ⟨0, _⟩ => rfl)
theorem hid_lhs (b : Fin 8) (s : Fin 4096) (f : Fin 2048) (q : Fin 8) : lidx_main_v5 (ix3 b s f) q = ix3 b s q :=
  funext fun a => Fin.ext (by match a with | ⟨0, _⟩ => rfl | ⟨1, _⟩ => rfl | ⟨2, _⟩ => rfl)
theorem hid_rhs (b : Fin 8) (s : Fin 4096) (f : Fin 2048) (q : Fin 8) : ridx_main_v5 (ix3 b s f) q = ix2 q f :=
  funext fun a => Fin.ext (by match a with | ⟨0, _⟩ => rfl | ⟨1, _⟩ => rfl)
theorem hid_bias (b : Fin 8) (s : Fin 4096) (f : Fin 2048) : idx_main_v6 (idx_main_v7 (ix3 b s f)) = ix1 f :=
  funext fun a => Fin.ext (by match a with | ⟨0, _⟩ => rfl)
theorem angle (b : Fin 8) (s : Fin 4096) (q : Fin 8) : idx_main_v2 (idx_main_v3 (ix3 b s q)) = ix1 q :=
  funext fun a => Fin.ext (by match a with | ⟨0, _⟩ => rfl)

/-- The hidden layer before the maximum, at token `(b, s)` and unit `f`. -/
theorem preact_apply (x : FVec Ideal S8x4096x8 .f32) (θ : FVec Ideal S8 .f32) (W1 : FVec Ideal S8x2048 .f32)
    (b1 : FVec Ideal S2048 .f32) (b : Fin 8) (s : Fin 4096) (f : Fin 2048) :
    val_main_v8 (F := Ideal) x θ W1 b1 (ix3 b s f)
      = (∑ q : Fin 8, (Ideal.cos (x (ix3 b s q)) * Ideal.cos (θ (ix1 q))) * W1 (ix2 q f)) + b1 (ix1 f) := by
  rw [val_main_v8_apply, val_main_v5_apply, val_main_v7_apply, val_main_v6_apply, hid_bias]
  simp only [hid_lhs, hid_rhs, val_main_v4_apply, val_main_v0_apply, val_main_v3_apply, val_main_v2_apply,
    val_main_v1_apply, angle]
  rfl

/-- The reference's result is the head of its argument arrays. -/
theorem result_eq (x : FVec Ideal S8x4096x8 .f32) (θ : FVec Ideal S8 .f32) (W1 : FVec Ideal S8x2048 .f32)
    (b1 : FVec Ideal S2048 .f32) (W2 : FVec Ideal S2048x512 .f32) (b2 : FVec Ideal S512 .f32) :
    val_main_v13 (F := Ideal) x θ W1 b1 W2 b2 = head x θ W1 b1 W2 b2 := by
  funext i
  obtain ⟨b, s, e, rfl⟩ : ∃ (b : Fin 8) (s : Fin 4096) (e : Fin 512), i = ix3 b s e := ⟨i 0, i 1, i 2, eq_ix3 i⟩
  rw [val_main_v13_apply, val_main_v10_apply, val_main_v12_apply, val_main_v11_apply, out_bias]
  simp only [out_lhs, out_rhs, val_main_v9_apply, preact_apply, val_main_call0_v0_apply, val_main_call0_cst_apply]
  rfl

end Cert.CosHead.Ref

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KernelPayload.lean ====
/-
  What one grid point stores, entry by entry.

  At a grid point the body loads a `[512, 8]` block of tokens, the one-row angles, `W1`, the one-row `b1`, `W2` and the
  one-row `b2`, and stores one `[512, 512]` block. At the ideal values the narrowing to bfloat16 before each product
  changes nothing and each product into a zero accumulator is a plain sum over the contracted axis, so entry `(p, e)`
  of the stored block is the head's formula over row `p` of the token block.
-/
import proofs.«105000_j65481071397339_1_alg».proof.Proof.Gen.KernelIdeal.Skeleton
import proofs.«105000_j65481071397339_1_alg».proof.Proof.LibDot
import proofs.«105000_j65481071397339_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.CosHead.Kernel

open Idealize.ShloMosaic Idealize.ShloMosaic.ValueIdx Cert.KernelIdeal Cert.KernelIdeal.Gen

/-- The two printed contractions are plain "rows by columns" products. -/
theorem dot_hidden : dot_S512x8_S8x2048_S512x2048_1_0_0_1_n_n = DotDims.plain 512 8 2048 := rfl
theorem dot_out : dot_S512x2048_S2048x512_S512x512_1_0_0_1_n_n = DotDims.plain 512 2048 512 := rfl

/-- The features of a token block: `cos x · cos θ`, the angles' one row read at every token. -/
def feat (x0 : Vec Ideal S512x8 .f32) (x1 : Vec Ideal S1x8 .f32) : FVec Ideal S512x8 .bf16 :=
  truncf .bf16 (mulf (cos (shapeCast S512x8 x0 Facts₀.shapeCasts_S512x8_S512x8))
    (broadcastTo S512x8 (cos (shapeCast S1x8 x1 Facts₀.shapeCasts_S1x8_S1x8)) Facts₀.broadcasts_S1x8_S512x8)) Facts₀.bitsLt_bf16_f32

theorem feat_apply (x0 : Vec Ideal S512x8 .f32) (x1 : Vec Ideal S1x8 .f32) (p : Fin 512) (q : Fin 8) :
    feat x0 x1 (ix2 p q) = Ideal.cos (x0 (ix2 p q)) * Ideal.cos (x1 (ix2 (0 : Fin 1) q)) := by
  unfold feat
  rw [truncf_apply, mulf_apply, shapeCast_self, shapeCast_self, broadcastTo_1b_ab_apply]
  rfl

/-- The hidden layer of a token block: the features against `W1`, plus `b1`'s one row, then the maximum with zero. -/
def hid (x0 : Vec Ideal S512x8 .f32) (x1 : Vec Ideal S1x8 .f32) (x2 : Vec Ideal S8x2048 .f32) (x3 : Vec Ideal S1x2048 .f32) :
    FVec Ideal S512x2048 .bf16 :=
  truncf .bf16 (maximumf
    (addf (matmul dot_S512x8_S8x2048_S512x2048_1_0_0_1_n_n none (feat x0 x1) (truncf .bf16 x2 Facts₀.bitsLt_bf16_f32)
        (constant S512x2048 .f32 0x00000000#32))
      (broadcastTo S512x2048 (shapeCast S1x2048 x3 Facts₀.shapeCasts_S1x2048_S1x2048) Facts₀.broadcasts_S1x2048_S512x2048))
    (broadcast S512x2048 (Scalar.ofBits .f32 0x00000000#32))) Facts₀.bitsLt_bf16_f32

theorem hid_apply (x0 : Vec Ideal S512x8 .f32) (x1 : Vec Ideal S1x8 .f32) (x2 : Vec Ideal S8x2048 .f32)
    (x3 : Vec Ideal S1x2048 .f32) (p : Fin 512) (f : Fin 2048) :
    hid x0 x1 x2 x3 (ix2 p f)
      = max ((∑ q : Fin 8, (Ideal.cos (x0 (ix2 p q)) * Ideal.cos (x1 (ix2 (0 : Fin 1) q))) * x2 (ix2 q f))
          + x3 (ix2 (0 : Fin 1) f)) (Ideal.ofBits .f32 0x00000000#32) := by
  unfold hid
  rw [truncf_apply, maximumf_apply, addf_apply, dot_hidden]
  show max (FloatOps.matmul (DotDims.plain 512 8 2048) none _ _ (constant ⟨2, ![512, 2048]⟩ .f32 0x00000000#32) (ix2 p f) + _) _ = _
  rw [Cert.GNN.matmul_plain_zero_apply, shapeCast_self, broadcastTo_1b_ab_apply]
  simp only [feat_apply, truncf_apply]
  rfl

/-- The body's one payload is the hidden layer against `W2`, plus `b2`'s one row. -/
theorem pay_eq (x0 : Vec Ideal S512x8 .f32) (x1 : Vec Ideal S1x8 .f32) (x2 : Vec Ideal S8x2048 .f32)
    (x3 : Vec Ideal S1x2048 .f32) (x4 : Vec Ideal S2048x512 .f32) (x5 : Vec Ideal S1x512 .f32) :
    k0_pay1 (F := Ideal) x0 x1 x2 x3 x4 x5
      = addf (matmul dot_S512x2048_S2048x512_S512x512_1_0_0_1_n_n none (hid x0 x1 x2 x3)
            (truncf .bf16 x4 Facts₀.bitsLt_bf16_f32) (constant S512x512 .f32 0x00000000#32))
          (broadcastTo S512x512 (shapeCast S1x512 x5 Facts₀.shapeCasts_S1x512_S1x512) Facts₀.broadcasts_S1x512_S512x512) := rfl

/-- Entry `(p, e)` of the stored block. -/
theorem pay_apply (x0 : Vec Ideal S512x8 .f32) (x1 : Vec Ideal S1x8 .f32) (x2 : Vec Ideal S8x2048 .f32)
    (x3 : Vec Ideal S1x2048 .f32) (x4 : Vec Ideal S2048x512 .f32) (x5 : Vec Ideal S1x512 .f32) (p e : Fin 512) :
    k0_pay1 (F := Ideal) x0 x1 x2 x3 x4 x5 (ix2 p e)
      = (∑ f : Fin 2048,
          max ((∑ q : Fin 8, (Ideal.cos (x0 (ix2 p q)) * Ideal.cos (x1 (ix2 (0 : Fin 1) q))) * x2 (ix2 q f))
              + x3 (ix2 (0 : Fin 1) f)) (Ideal.ofBits .f32 0x00000000#32)
            * x4 (ix2 f e))
        + x5 (ix2 (0 : Fin 1) e) := by
  rw [pay_eq, addf_apply, dot_out]
  show FloatOps.matmul (DotDims.plain 512 2048 512) none _ _ (constant ⟨2, ![512, 512]⟩ .f32 0x00000000#32) (ix2 p e) + _ = _
  rw [Cert.GNN.matmul_plain_zero_apply, shapeCast_self, broadcastTo_1b_ab_apply]
  simp only [hid_apply, truncf_apply]

/-- The stored block against the rows form of the head: if, coordinate by coordinate, the loaded blocks hold what the
    arrays `X0 … X5` hold — the token block's row `p` being row `i 0` of `X0`, and column `e` of the block being
    column `i 1` of the array — then entry `(p, e)` of the stored block is entry `i` of the head over those arrays. -/
theorem block_eq (X0 : FVec Ideal ⟨2, ![32768, 8]⟩ .f32) (X1 : FVec Ideal ⟨2, ![1, 8]⟩ .f32)
    (X2 : FVec Ideal ⟨2, ![8, 2048]⟩ .f32) (X3 : FVec Ideal ⟨2, ![1, 2048]⟩ .f32)
    (X4 : FVec Ideal ⟨2, ![2048, 512]⟩ .f32) (X5 : FVec Ideal ⟨2, ![1, 512]⟩ .f32)
    (x0 : Vec Ideal S512x8 .f32) (x1 : Vec Ideal S1x8 .f32) (x2 : Vec Ideal S8x2048 .f32)
    (x3 : Vec Ideal S1x2048 .f32) (x4 : Vec Ideal S2048x512 .f32) (x5 : Vec Ideal S1x512 .f32)
    (p e : Fin 512) (i : S32768x512.Idx)
    (h0 : ∀ q : Fin 8, x0 (ix2 p q) = X0 (ix2 (i 0) q))
    (h1 : ∀ q : Fin 8, x1 (ix2 (0 : Fin 1) q) = X1 (ix2 (0 : Fin 1) q))
    (h2 : ∀ (q : Fin 8) (f : Fin 2048), x2 (ix2 q f) = X2 (ix2 q f))
    (h3 : ∀ f : Fin 2048, x3 (ix2 (0 : Fin 1) f) = X3 (ix2 (0 : Fin 1) f))
    (h4 : ∀ f : Fin 2048, x4 (ix2 f e) = X4 (ix2 f (i 1)))
    (h5 : x5 (ix2 (0 : Fin 1) e) = X5 (ix2 (0 : Fin 1) (i 1))) :
    k0_pay1 (F := Ideal) x0 x1 x2 x3 x4 x5 (ix2 p e) = headRows X0 X1 X2 X3 X4 X5 i := by
  rw [pay_apply]
  unfold headRows
  simp only [h0, h1, h2, h3, h4, h5]

end Cert.CosHead.Kernel

end
-- ==== Proof.Layout.lean ====
/-
  The token axis flattened and restored, read at an index.

  A `[8, 4096, n]` array and its `[32768, n]` reshape hold the same numbers in the same row-major order: entry
  `(b, s, j)` of the one is entry `(b · 4096 + s, j)` of the other, in either direction.
-/
import Idealize.ShloMosaic.Lib.Pipeline.Value
import Idealize.ShloMosaic.Lib.ValueIdx
import proofs.«105000_j65481071397339_1_alg».proof.Proof.Spec

noncomputable section

namespace Cert.CosHead

open Idealize.ShloMosaic Idealize.ShloMosaic.ValueIdx

variable {α : Type}

/-- Flattening the token axis: row `b · 4096 + s` of the reshape is token `(b, s)`. -/
theorem flatten_apply {n : ℕ} (x : (⟨3, ![8, 4096, n]⟩ : Shape).Idx → α)
    (h : (⟨3, ![8, 4096, n]⟩ : Shape).ShapeCasts ⟨2, ![32768, n]⟩) (b : Fin 8) (s : Fin 4096) (j : Fin n) :
    shapeCast ⟨2, ![32768, n]⟩ x h (ix2 (row b s) j) = x (ix3 b s j) :=
  shapeCast_apply x h _ _ (by
    rw [Shape.rowMajor_val_two, Shape.rowMajor_val_three]
    show (b.val * 4096 + s.val) * n + j.val = (b.val * 4096 + s.val) * n + j.val
    rfl)

/-- Restoring the token axis: token `(b, s)` of the reshape is row `b · 4096 + s`. -/
theorem unflatten_apply {n : ℕ} (y : (⟨2, ![32768, n]⟩ : Shape).Idx → α)
    (h : (⟨2, ![32768, n]⟩ : Shape).ShapeCasts ⟨3, ![8, 4096, n]⟩) (b : Fin 8) (s : Fin 4096) (j : Fin n) :
    shapeCast ⟨3, ![8, 4096, n]⟩ y h (ix3 b s j) = y (ix2 (row b s) j) :=
  shapeCast_apply y h _ _ (by
    rw [Shape.rowMajor_val_two, Shape.rowMajor_val_three]
    show (b.val * 4096 + s.val) * n + j.val = (b.val * 4096 + s.val) * n + j.val
    rfl)

end Cert.CosHead

end
-- ==== Proof.KernelValue.lean ====
/-
  What the kernel's program leaves in its result, entry by entry.

  The program flattens the token axis of `x` to 32768 rows and turns the angles and the two biases into one-row
  matrices; a grid of 64 points then walks the rows 512 at a time, point `t` reading token rows `512 t … 512 t + 511`
  and the other five arrays whole, and writing rows `512 t … 512 t + 511` of a `[32768, 512]` array; finally the token
  axis is restored. Point `t`'s block is the rows form of the head restricted to its rows, the 64 blocks tile the
  array, and the two reshapes are the change of index `(b, s) ↔ b · 4096 + s`: so the result is the head of the
  argument arrays.
-/
import proofs.«105000_j65481071397339_1_alg».proof.Proof.Gen.KernelIdeal.Frame
import proofs.«105000_j65481071397339_1_alg».proof.Proof.KernelPayload
import proofs.«105000_j65481071397339_1_alg».proof.Proof.Layout
import Idealize.ShloMosaic.Lib.Pipeline.Value
import Idealize.ShloMosaic.Lib.ValueLayout
import Idealize.ShloMosaic.Lib.StableHlo.Run

set_option maxRecDepth 16384

noncomputable section

namespace Cert.CosHead.Kernel

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The rows form of the head over the arrays as the grid finds them. -/
abbrev rowsOf (c : Dev nD) : S32768x512.Idx → Elt Ideal .f32 :=
  headRows (V m c main_v0) (V m c main_v1) (V m c main_arg2) (V m c main_v2) (V m c main_arg4) (V m c main_v3)

/-- Where each window's block sits at point `t`: the token window and the output window at block row `t`, every other
    window at its one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is its block of the rows form. -/
theorem written_eq (c : Dev nD) (t : Fin cfg0.N) :
    (dats m 0 c).flushed 6 t = ((cfg0.win 6).blk t).view.read (Elt Ideal) (rowsOf m c) := by
  show (cfg0.win 6).cut (grid0.coords t) ((dats m 0 c).after 6 t) = _
  rw [after0_6]
  unfold out0_6
  rw [View.canon_unit_zero origin]
  simp only [View.ld_unit_zero (S := S512x8) origin, View.ld_unit_zero (S := S1x8) origin,
    View.ld_unit_zero (S := S8x2048) origin, View.ld_unit_zero (S := S1x2048) origin,
    View.ld_unit_zero (S := S2048x512) origin, View.ld_unit_zero (S := S1x512) origin]
  obtain ⟨a00, a01, a10, a11, a20, a21, a30, a31, a40, a41, a50, a51, a60, a61⟩ := block_index t
  show (k0_pay1 (F := Ideal) (iblk m c 0 t) (iblk m c 1 t) (iblk m c 2 t) (iblk m c 3 t) (iblk m c 4 t) (iblk m c 5 t)
      : S512x512.Idx → Elt Ideal .f32) = fun j : S512x512.Idx => rowsOf m c (((cfg0.win 6).blk t).view.emb j)
  funext j
  obtain ⟨p, e, rfl⟩ : ∃ (p : Fin 512) (e : Fin 512), j = ix2 p e := ⟨j 0, j 1, eq_ix2 j⟩
  have hp : p.val < 512 := p.isLt
  have he : e.val < 512 := e.isLt
  refine block_eq (V m c main_v0) (V m c main_v1) (V m c main_arg2) (V m c main_v2) (V m c main_arg4) (V m c main_v3)
    (iblk m c 0 t) (iblk m c 1 t) (iblk m c 2 t) (iblk m c 3 t) (iblk m c 4 t) (iblk m c 5 t) p e
    (((cfg0.win 6).blk t).view.emb (ix2 p e)) ?_ ?_ ?_ ?_ ?_ ?_
  · intro q
    have hq : q.val < 8 := q.isLt
    show V m c main_v0 (((cfg0.win 0).blk t).view.emb (ix2 p q)) = V m c main_v0 _
    refine congrArg (V m c main_v0) (funext fun a => Fin.ext ?_)
    match a with
    | ⟨0, _⟩ => show win0_0.index t (0 : Fin 2) * 512 + 1 * p.val = win0_6.index t (0 : Fin 2) * 512 + 1 * p.val; omega
    | ⟨1, _⟩ => show win0_0.index t (1 : Fin 2) * 8 + 1 * q.val = q.val; omega
  · intro q
    have hq : q.val < 8 := q.isLt
    show V m c main_v1 (((cfg0.win 1).blk t).view.emb (ix2 (0 : Fin 1) q)) = V m c main_v1 _
    refine congrArg (V m c main_v1) (funext fun a => Fin.ext ?_)
    match a with
    | ⟨0, _⟩ => show win0_1.index t (0 : Fin 2) * 1 + 1 * 0 = 0; omega
    | ⟨1, _⟩ => show win0_1.index t (1 : Fin 2) * 8 + 1 * q.val = q.val; omega
  · intro q f
    have hq : q.val < 8 := q.isLt
    have hf : f.val < 2048 := f.isLt
    show V m c main_arg2 (((cfg0.win 2).blk t).view.emb (ix2 q f)) = V m c main_arg2 _
    refine congrArg (V m c main_arg2) (funext fun a => Fin.ext ?_)
    match a with
    | ⟨0, _⟩ => show win0_2.index t (0 : Fin 2) * 8 + 1 * q.val = q.val; omega
    | ⟨1, _⟩ => show win0_2.index t (1 : Fin 2) * 2048 + 1 * f.val = f.val; omega
  · intro f
    have hf : f.val < 2048 := f.isLt
    show V m c main_v2 (((cfg0.win 3).blk t).view.emb (ix2 (0 : Fin 1) f)) = V m c main_v2 _
    refine congrArg (V m c main_v2) (funext fun a => Fin.ext ?_)
    match a with
    | ⟨0, _⟩ => show win0_3.index t (0 : Fin 2) * 1 + 1 * 0 = 0; omega
    | ⟨1, _⟩ => show win0_3.index t (1 : Fin 2) * 2048 + 1 * f.val = f.val; omega
  · intro f
    have hf : f.val < 2048 := f.isLt
    show V m c main_arg4 (((cfg0.win 4).blk t).view.emb (ix2 f e)) = V m c main_arg4 _
    refine congrArg (V m c main_arg4) (funext fun a => Fin.ext ?_)
    match a with
    | ⟨0, _⟩ => show win0_4.index t (0 : Fin 2) * 2048 + 1 * f.val = f.val; omega
    | ⟨1, _⟩ => show win0_4.index t (1 : Fin 2) * 512 + 1 * e.val = win0_6.index t (1 : Fin 2) * 512 + 1 * e.val; omega
  · show V m c main_v3 (((cfg0.win 5).blk t).view.emb (ix2 (0 : Fin 1) e)) = V m c main_v3 _
    refine congrArg (V m c main_v3) (funext fun a => Fin.ext ?_)
    match a with
    | ⟨0, _⟩ => show win0_5.index t (0 : Fin 2) * 1 + 1 * 0 = 0; omega
    | ⟨1, _⟩ => show win0_5.index t (1 : Fin 2) * 512 + 1 * e.val = win0_6.index t (1 : Fin 2) * 512 + 1 * e.val; omega

/-- An index of the output array is in point `t`'s block iff each coordinate is in the block's range on its axis. -/
theorem mem_block (t : Fin cfg0.N) (i : S32768x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v4).slice (win0_6.rect t)).set ↔ _
  rw [View.set_slice_whole, Rect.mem_set_unit]
  exact Iff.rfl

/-- Row `r` of the output array is written by point `r / 512`: the 64 blocks tile the array. -/
theorem tiled (i : S32768x512.Idx) :
    ∃ t : Fin cfg0.N, (cfg0.win 6).flush t = true ∧ i ∈ ((cfg0.win 6).blk t).view.set := by
  have hi0 : (i 0).val < 32768 := (i 0).isLt
  have hi1 : (i 1).val < 512 := (i 1).isLt
  have hN : cfg0.N = 64 := N_0
  let t : Fin cfg0.N := ⟨(i 0).val / 512, by rw [hN]; omega⟩
  have ht : t.val = (i 0).val / 512 := rfl
  obtain ⟨-, -, -, -, -, -, -, -, -, -, -, -, a60, a61⟩ := block_index t
  refine ⟨t, flush0_6 t, ?_⟩
  rw [mem_block]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- The output array after the grid is the rows form of the head. -/
theorem grid_result (c : Dev nD) : (dats m 0 c).arrAt 6 cfg0.N = rowsOf m c :=
  (dats m 0 c).arrAt_eq_of_cover 6 (rowsOf m c) (fun t _ => written_eq m c t) tiled

/-! The arrays the host lines before the grid prepare. -/

theorem tokens_eq (c : Dev nD) : (V m c main_v0 : S32768x8.Idx → Elt Ideal .f32)
    = shapeCast S32768x8 (m ((c : Thread nD τ).loc main_arg0)) Facts₀.shapeCasts_S8x4096x8_S32768x8 := by
  show StableHlo.after hostOps0 (fun b => m (c, b)) (Proc.devRef .tc main_v0) = _
  after_results; rfl
theorem angles_eq (c : Dev nD) : (V m c main_v1 : S1x8.Idx → Elt Ideal .f32)
    = shapeCast S1x8 (m ((c : Thread nD τ).loc main_arg1)) Facts₀.shapeCasts_S8_S1x8 := by
  show StableHlo.after hostOps0 (fun b => m (c, b)) (Proc.devRef .tc main_v1) = _
  after_results; rfl
theorem bias1_eq (c : Dev nD) : (V m c main_v2 : S1x2048.Idx → Elt Ideal .f32)
    = shapeCast S1x2048 (m ((c : Thread nD τ).loc main_arg3)) Facts₀.shapeCasts_S2048_S1x2048 := by
  show StableHlo.after hostOps0 (fun b => m (c, b)) (Proc.devRef .tc main_v2) = _
  after_results; rfl
theorem bias2_eq (c : Dev nD) : (V m c main_v3 : S1x512.Idx → Elt Ideal .f32)
    = shapeCast S1x512 (m ((c : Thread nD τ).loc main_arg5)) Facts₀.shapeCasts_S512_S1x512 := by
  show StableHlo.after hostOps0 (fun b => m (c, b)) (Proc.devRef .tc main_v3) = _
  after_results; rfl

/-- The result buffer: the grid's output with the token axis restored. -/
theorem tail_eq (c : Dev nD) :
    Pipeline.afterTail₀ cfgs (dats m) 0 (V0 m) [hostOps1] c main_v5
      = shapeCast S8x4096x512 (rowsOf m c) Facts₀.shapeCasts_S32768x512_S8x4096x512 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = rowsOf m c :=
    (Pipeline.withArrays_arr spec0 launch0.win.arr_inj c (V0 m c) (fun w => (dats m 0 c).arrAt w cfg0.N) 6).trans
      (grid_result m c)
  funext i
  exact congrFun (congrArg (fun y => shapeCast S8x4096x512 y Facts₀.shapeCasts_S32768x512_S8x4096x512) e) i

/-- The rows form over the prepared arrays, written over the argument arrays. -/
theorem rows_eq (c : Dev nD) :
    rowsOf m c = headRows
      (shapeCast S32768x8 (m ((c : Thread nD τ).loc main_arg0)) Facts₀.shapeCasts_S8x4096x8_S32768x8)
      (shapeCast S1x8 (m ((c : Thread nD τ).loc main_arg1)) Facts₀.shapeCasts_S8_S1x8)
      (m ((c : Thread nD τ).loc main_arg2))
      (shapeCast S1x2048 (m ((c : Thread nD τ).loc main_arg3)) Facts₀.shapeCasts_S2048_S1x2048)
      (m ((c : Thread nD τ).loc main_arg4))
      (shapeCast S1x512 (m ((c : Thread nD τ).loc main_arg5)) Facts₀.shapeCasts_S512_S1x512) := by
  show headRows (V m c main_v0) (V m c main_v1) (V m c main_arg2) (V m c main_v2) (V m c main_arg4) (V m c main_v3) = _
  rw [tokens_eq, angles_eq, bias1_eq, bias2_eq, V_main_arg2, V_main_arg4]

/-- With the token axis restored, the grid's output is the head of the argument arrays. -/
theorem result_eq (c : Dev nD) :
    shapeCast S8x4096x512 (rowsOf m c) Facts₀.shapeCasts_S32768x512_S8x4096x512
      = head (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨b, s, e, rfl⟩ : ∃ (b : Fin 8) (s : Fin 4096) (e : Fin 512), i = ix3 b s e := ⟨i 0, i 1, i 2, eq_ix3 i⟩
  rw [rows_eq, unflatten_apply]
  exact head_eq_rows _ _ _ _ _ _ _ _ _ _ (fun b s q => flatten_apply _ _ b s q)
    (fun q => shapeCast_a_1a_apply _ _ 0 q) (fun f => shapeCast_a_1a_apply _ _ 0 f)
    (fun e => shapeCast_a_1a_apply _ _ 0 e) b s e

/-- Every weakly fair execution of the kernel's program terminates with the result buffer at the head of the argument
    arrays, and the argument arrays as launched. -/
theorem run : θ_run defs (onTc (τ := τ) (main (F := Ideal))) ⟨m, fun _ => 0, ρ⟩ fun r => ∀ c : Dev nD,
      r.2.mem ((c.tc : Thread nD τ).loc main_v5)
        = head (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v5 (Pipeline.mem_restRefs_of main_v5 (by decide) (by decide))).trans
        ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.CosHead.Kernel

end
-- ==== Proof.lean ====
/-
  A feed-forward head over cosine features, tiled over the tokens, against its plain reference.

  For each of `8 · 4096` tokens with inputs `x₀ … x₇` and shared angles `θ₀ … θ₇` both programs compute
  `out_e = ∑_f max (∑_q cos x_q · cos θ_q · W1[q, f] + b1[f]) 0 · W2[f, e] + b2[e]`.
  The kernel's program flattens the token axis to 32768 rows, walks them 512 at a time over a grid of 64 points with
  the weights resident, narrows to bfloat16 before each product (the identity at the ideal values) and accumulates each
  product from zero (a plain sum there), then restores the token axis; the reference works on the `[8, 4096, ·]`
  arrays directly. The two sides are the same expression term by term, so they are joined by the change of index
  `(b, s) ↔ b · 4096 + s` alone; the inputs' finiteness is not used, and the kernel read at the ideal values is its
  word-level text unchanged, so nothing is owed for that reading.
-/
import proofs.«105000_j65481071397339_1_alg».proof.Defs
import proofs.«105000_j65481071397339_1_alg».proof.Proof.Gen.Kernel
import proofs.«105000_j65481071397339_1_alg».proof.Proof.Gen.Kernel.Skeleton
import proofs.«105000_j65481071397339_1_alg».proof.Proof.Gen.Kernel.Launch
import proofs.«105000_j65481071397339_1_alg».proof.Proof.Gen.Kernel.Points
import proofs.«105000_j65481071397339_1_alg».proof.Proof.Gen.Kernel.Frame
import proofs.«105000_j65481071397339_1_alg».proof.Proof.Gen.KernelIdeal
import proofs.«105000_j65481071397339_1_alg».proof.Proof.Gen.KernelIdeal.Skeleton
import proofs.«105000_j65481071397339_1_alg».proof.Proof.Gen.KernelIdeal.Launch
import proofs.«105000_j65481071397339_1_alg».proof.Proof.Gen.KernelIdeal.Points
import proofs.«105000_j65481071397339_1_alg».proof.Proof.Gen.KernelIdeal.Frame
import proofs.«105000_j65481071397339_1_alg».proof.Proof.Gen.ReferenceIdeal
import proofs.«105000_j65481071397339_1_alg».proof.Proof.Gen.ReferenceIdeal.Run
import proofs.«105000_j65481071397339_1_alg».proof.Proof.Gen.ReferenceIdeal.Read
import proofs.«105000_j65481071397339_1_alg».proof.Proof.Gen.Pre_finite_inputs
import proofs.«105000_j65481071397339_1_alg».proof.Proof.RefValue
import proofs.«105000_j65481071397339_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the head of those arguments in their result
    buffers: the kernel's by its blocks tiling the flattened array, the reference's one operation at a time. -/
theorem algebraic : Cert.algebraic_KernelIdeal_ReferenceIdeal := by
  intro m ρ m' ρ' _ hagree
  refine ⟨_, Cert.CosHead.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.CosHead.Ref.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
